-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x20000000 : Shape := ⟨2, ![2, 20000000]⟩
abbrev S20000000 : Shape := ⟨1, ![20000000]⟩
abbrev S_ : Shape := ⟨0, ![]⟩

class Facts : Prop where
  bcast_S_S20000000 : S_.BroadcastsInDim S20000000 (![] : Fin 0 → Fin S20000000.rank)
  reducesTo_S20000000_S_d0 : S20000000.ReducesTo [0] S_
  h_S_ : 0 < S_.numel

variable [Facts]

def fn {F : FTy → Type} [FloatOps F] (main_arg0 : IVec S2x20000000 32) (main_arg1 : FVec F S20000000 .f32) (main_arg2 : IVec S20000000 1) : IVec S_ 1 :=
  let main_v0 : FVec F S20000000 .f32 := Host.absf main_arg1
  let main_cst : FVec F S_ .f32 := constant S_ .f32 0x7F800000#32
  let main_v1 : FVec F S20000000 .f32 := broadcastInDim S20000000 ![] bcast_S_S20000000 main_cst
  let main_v2 : IVec S20000000 1 := cmpf .olt main_v0 main_v1
  let main_c : IVec S_ 1 := constantI S_ 1 1#1
  let main_v3 : IVec S_ 1 := (fun x v => Host.reduce IntOp.andi x v reducesTo_S20000000_S_d0 h_S_) main_v2 main_c
  main_v3
-- ==== Kernel.lean ====
abbrev S2x20000000 : Shape := ⟨2, ![2, 20000000]⟩
abbrev S20000000 : Shape := ⟨1, ![20000000]⟩
abbrev S_ : Shape := ⟨0, ![]⟩
abbrev S20971520 : Shape := ⟨1, ![20971520]⟩
abbrev S163840x128 : Shape := ⟨2, ![163840, 128]⟩
abbrev S8192x128 : Shape := ⟨2, ![8192, 128]⟩

abbrev nBuf : Space → Nat
  | .hbm => 18
  | .vmem => 6
  | .smem => 0
  | _ => 0

abbrev bufTy : (tb : Table) → Fin (tcTables nBuf tb) → BufTy
  | .hbm, ⟨0, _⟩ => ⟨S2x20000000, .i32⟩
  | .hbm, ⟨1, _⟩ => ⟨S20000000, .f32⟩
  | .hbm, ⟨2, _⟩ => ⟨S20000000, .i1⟩
  | .hbm, ⟨3, _⟩ => ⟨S_, .i32⟩
  | .hbm, ⟨4, _⟩ => ⟨S_, .f32⟩
  | .hbm, ⟨5, _⟩ => ⟨S20971520, .f32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i1⟩
  | .hbm, ⟨10, _⟩ => ⟨S_, .i1⟩
  | .hbm, ⟨11, _⟩ => ⟨S20971520, .i1⟩
  | .hbm, ⟨12, _⟩ => ⟨S163840x128, .f32⟩
  | .hbm, ⟨13, _⟩ => ⟨S163840x128, .i1⟩
  | .hbm, ⟨14, _⟩ => ⟨S163840x128, .i32⟩
  | .hbm, ⟨15, _⟩ => ⟨S163840x128, .f32⟩
  | .hbm, ⟨16, _⟩ => ⟨S20971520, .f32⟩
  | .hbm, ⟨17, _⟩ => ⟨S20000000, .f32⟩
  | .local _ .vmem, ⟨0, _⟩ => ⟨S8192x128, .f32⟩
  | .local _ .vmem, ⟨1, _⟩ => ⟨S8192x128, .f32⟩
  | .local _ .vmem, ⟨2, _⟩ => ⟨S8192x128, .i32⟩
  | .local _ .vmem, ⟨3, _⟩ => ⟨S8192x128, .i32⟩
  | .local _ .vmem, ⟨4, _⟩ => ⟨S8192x128, .f32⟩
  | .local _ .vmem, ⟨5, _⟩ => ⟨S8192x128, .f32⟩
  | _, _ => ⟨S2x20000000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_call0_v0 : Ref sig .tc := ⟨.hbm, 4, rfl⟩
abbrev main_call0_v0 : Ref sig .tc := ⟨.hbm, 5, rfl⟩
abbrev main_call0_c_0 : Ref sig .tc := ⟨.hbm, 6, rfl⟩
abbrev main_call0_call1_c : Ref sig .tc := ⟨.hbm, 7, rfl⟩
abbrev main_call0_call1_v0 : Ref sig .tc := ⟨.hbm, 8, rfl⟩
abbrev main_call0_call1_v1 : Ref sig .tc := ⟨.hbm, 9, rfl⟩
abbrev main_call0_call1_v2 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_v0 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  pads_S20000000_S20971520_09715200 : S20000000.Pads (![0] : Fin 1 → Nat) ![971520] ![0] S20971520
  h_S_ : 0 < S_.numel
  bcast_S_S_ : S_.BroadcastsInDim S_ (![] : Fin 0 → Fin S_.rank)
  shapeCasts_S20971520_S163840x128 : S20971520.ShapeCasts S163840x128
  natLt_1_32 : 1 < 32
  shapeCasts_S163840x128_S20971520 : S163840x128.ShapeCasts S20971520
  slices_S20971520_S20000000_0 : S20971520.Slices ![0] S20000000
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S163840x128.size a
  hwx0_0 : ∀ i : grid0.Coords, EltTy.bits .f32 = 32 ∨ (Rect.block (s := S163840x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S163840x128.size a
  hwx0_1 : ∀ i : grid0.Coords, EltTy.bits .i32 = 32 ∨ (Rect.block (s := S163840x128) S8192x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x128.size a ≤ S163840x128.size a
  hwx0_2 : ∀ i : grid0.Coords, EltTy.bits .f32 = 32 ∨ (Rect.block (s := S163840x128) S8192x128.size (cc0_transform_2 i) (hinb0_2 i)).WholeWords (EltTy.packing .f32)

variable [Facts₀]

abbrev win0_0 : Pipeline.Window sig grid0 :=
  Pipeline.Window.ofSpec (Memref.whole main_call0_v2) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v4) S8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v5) S8192x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2x20000000 : Shape := ⟨2, ![2, 20000000]⟩
abbrev S20000000 : Shape := ⟨1, ![20000000]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S2x20000000, .i32⟩
  | .hbm, ⟨1, _⟩ => ⟨S20000000, .f32⟩
  | .hbm, ⟨2, _⟩ => ⟨S20000000, .i1⟩
  | .hbm, ⟨3, _⟩ => ⟨S_, .f32⟩
  | .hbm, ⟨4, _⟩ => ⟨S20000000, .f32⟩
  | .hbm, ⟨5, _⟩ => ⟨S20000000, .f32⟩
  | .hbm, ⟨6, _⟩ => ⟨S_, .f32⟩
  | .hbm, ⟨7, _⟩ => ⟨S20000000, .f32⟩
  | .hbm, ⟨8, _⟩ => ⟨S20000000, .f32⟩
  | _, _ => ⟨S2x20000000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_call0_v0 : Ref sig .tc := ⟨.hbm, 7, rfl⟩
abbrev main_v2 : Ref sig .tc := ⟨.hbm, 8, rfl⟩

abbrev nD : Nat := 1
abbrev τ : Topo := Topo.v7x

variable {F : FTy → Type} [FloatOps F]

class Facts₀ : Prop where
  bcast_S_S20000000 : S_.BroadcastsInDim S20000000 (![] : Fin 0 → Fin S20000000.rank)

variable [Facts₀]

class Facts : Prop extends Facts₀ where

variable [Facts]
-- ==== Proof.Folding.lean ====
/-
  A flat array of 20 000 000 entries is padded at its end to 20 971 520 = 163 840 × 128 entries and folded into
  rows of 128: position (p, q) of the folded array is flat position 128·p + q. This module reads that fold at an
  index, reads at an index the unfolding and truncation that undo it, and records the one fact about words
  the masked product needs: a one-bit word widened to 32 bits differs from zero exactly when the bit is set.
-/
import Idealize.ShloMosaic.Lib.KernelVsHost

noncomputable section

namespace Cert.SparseDropout.Folding

open Idealize.ShloMosaic Idealize.ShloMosaic.ValueIdx

/-- The flat arrays, the padded flat arrays and the folded ones. -/
abbrev Flat : Shape := ⟨1, ![20000000]⟩
abbrev Padded : Shape := ⟨1, ![20971520]⟩
abbrev Rows : Shape := ⟨2, ![163840, 128]⟩

/-- A one-bit word widened to 32 bits differs from zero exactly when the bit is set. -/
theorem widen_ne_zero : ∀ b : BitVec 1, IntOp.cmpi .ne (b.setWidth 32) 0#32 = b := by decide

variable {α : Type}

/-- The fold of the end-padded array, read at row `p` and lane `q`: when 128·p + q is a position of the unpadded
    array, the entry there. -/
theorem fold_pad_apply (x : Flat.Idx → α) {u : Shape} (v : u.Idx → α)
    (hp : Flat.Pads (![0] : Fin 1 → Nat) ![971520] ![0] Padded) (hu : 0 < u.numel) (hc : Padded.ShapeCasts Rows)
    (p : Fin 163840) (q : Fin 128) (k : Fin 20000000) (hk : k.val = p.val * 128 + q.val) :
    shapeCast Rows (pad Padded ![0] ![971520] ![0] x v hp hu) hc (ix2 p q) = x (ix1 k) := by
  have hp' : p.val < 163840 := p.isLt
  have hq' : q.val < 128 := q.isLt
  refine (shapeCast_apply _ hc (ix2 p q) (ix1 (⟨p.val * 128 + q.val, by omega⟩ : Fin 20971520)) ?_).trans ?_
  · rw [Shape.rowMajor_val_one, Shape.rowMajor_val_two]
    rfl
  · refine pad_apply_of_inside _ _ _ x v hp hu _ (ix1 k) ?_
    intro a
    have ha : a = 0 := Subsingleton.elim _ _
    subst ha
    show p.val * 128 + q.val = 0 + k.val * (0 + 1)
    omega

/-- The folded array unfolded and cut to its first 20 000 000 entries, read at position `k`: the folded array at
    row k / 128 and lane k mod 128. -/
theorem unfold_cut_apply (y : Rows.Idx → α) (hc : Rows.ShapeCasts Padded) (hs : Padded.Slices (![0] : Fin 1 → Nat) Flat)
    (k : Fin 20000000) :
    extractStridedSlice Flat ![0] (shapeCast Padded y hc) hs (ix1 k)
      = y (ix2 (⟨k.val / 128, by have := k.isLt; omega⟩ : Fin 163840) (⟨k.val % 128, Nat.mod_lt _ (by decide)⟩ : Fin 128)) := by
  have hk' : k.val < 20000000 := k.isLt
  refine (extractStridedSlice_apply _ _ hs (ix1 k) (ix1 (⟨k.val, by omega⟩ : Fin 20971520)) (by
    intro a
    have ha : a = 0 := Subsingleton.elim _ _
    subst ha
    show k.val = 0 + k.val; omega)).trans ?_
  refine shapeCast_apply _ hc _ _ ?_
  rw [Shape.rowMajor_val_one, Shape.rowMajor_val_two]
  show k.val / 128 * 128 + k.val % 128 = k.val
  omega

end Cert.SparseDropout.Folding

end
-- ==== Proof.KernelValue.lean ====
/-
  What the idealized kernel leaves in its result array. The folded values array (163 840 rows of 128) and the folded,
  widened mask are cut into 20 blocks of 8 192 rows; at each block the body writes, entry by entry, the value times
  the scale word where the mask word differs from zero, and the zero word elsewhere. Each entry depends only on the
  same position of the two inputs, so the 20 written blocks are the restrictions of ONE function of the two folded
  arrays, and they tile the array: after the run the result array is that function. The folded arrays are the
  arguments padded at the end and folded into rows of 128 (the mask also widened to words), and the program's result
  is the result array unfolded and cut back to 20 000 000 entries; position k of the result is row k / 128, lane
  k mod 128, which lies in the unpadded part, so the padding is never read: the result at k is the value at k times the
  scale word where the mask bit at k is set, and the zero word elsewhere.
-/
import proofs.«171770_j52381421142407_1_alg».proof.Proof.Gen.KernelIdeal.Frame
import proofs.«171770_j52381421142407_1_alg».proof.Proof.Folding
import Idealize.ShloMosaic.Lib.Pipeline.Value
import Idealize.ShloMosaic.Lib.StableHlo.Run

set_option maxRecDepth 16384

noncomputable section

namespace Cert.KernelIdeal.Masked

open Cert.KernelIdeal Cert.KernelIdeal.Gen Idealize.ShloMosaic Idealize.ShloMosaic.TcCoe Idealize.SL.Sem
open Idealize.ShloMosaic.ValueIdx
open Idealize.ShloMosaic.Pipeline (Dat)

variable {F : FTy → Type} [FloatOps F]
variable (m : (ℓ : Loc nD τ sig) → Buf (Elt F) ℓ) (ρ : Dev nD → PrngReg)

theorem zero_offsets : (![0, 0] : Fin 2 → Nat) = fun _ => 0 := funext fun a => by fin_cases a <;> rfl

/-- The masked, rescaled array: at each position the value times the scale word where the mask word differs from
    zero, the zero word elsewhere. -/
abbrev masked {S : Shape} (a0 : S.Idx → Elt F .f32) (a1 : S.Idx → Elt F .i32) : S.Idx → Elt F .f32 := fun i =>
  Scalar.select (IntOp.cmpi .ne (a1 i) 0#32) (FloatOps.mulf (a0 i) (Scalar.ofBits .f32 0x3F8E38E4#32)) (Scalar.ofBits .f32 0x00000000#32)

/-- The body's stored value is the masked, rescaled block: its two shape casts are to the blocks' own shape. -/
theorem stored_eq (x0 : Vec F S8192x128 .f32) (x1 : Vec F S8192x128 .i32) : k0_pay1 x0 x1 = masked x0 x1 := by
  unfold k0_pay1
  simp only [shapeCast_self]
  rfl

/-- The three windows move together: at point `t` each is at block row `t`, block column 0. -/
theorem same_block : ∀ t : Fin cfg0.N, win0_0.index t (0 : Fin 2) = win0_2.index t (0 : Fin 2)
    ∧ win0_0.index t (1 : Fin 2) = win0_2.index t (1 : Fin 2)
    ∧ win0_1.index t (0 : Fin 2) = win0_2.index t (0 : Fin 2)
    ∧ win0_1.index t (1 : Fin 2) = win0_2.index t (1 : Fin 2) :=
  (by decide +kernel : ∀ t : Fin grid0.N, _)

/-- Every one of the 20 block rows is some point's. -/
theorem block_row_onto : ∀ b : Fin 20, ∃ t : Fin cfg0.N, win0_2.index t (0 : Fin 2) = b.val ∧ win0_2.index t (1 : Fin 2) = 0 :=
  (by decide +kernel : ∀ b : Fin 20, ∃ t : Fin grid0.N, win0_2.index t (0 : Fin 2) = b.val ∧ win0_2.index t (1 : Fin 2) = 0)

set_option maxHeartbeats 1000000 in
/-- What point `t` writes back is block `t` of the masked, rescaled folded arrays as the region finds them: the
    three windows sit on the same block, so the body's two input blocks are the two arrays read where the output's
    block lies. -/
theorem written_eq (c : Dev nD) (t : Fin cfg0.N) :
    (dats m 0 c).flushed 2 t = ((cfg0.win 2).blk t).view.read (Elt F) (masked (V m c main_call0_v2) (V m c main_call0_v4)) := by
  show (cfg0.win 2).cut (grid0.coords t) ((dats m 0 c).after 2 t) = _
  rw [after0_2]
  unfold out0_2
  rw [View.canon_unit_zero zero_offsets]
  simp only [View.ld_unit_zero (S := S8192x128) zero_offsets]
  rw [stored_eq]
  obtain ⟨e0, e1, e2, e3⟩ := same_block t
  funext j
  show Scalar.select (IntOp.cmpi .ne (V m c main_call0_v4 (((cfg0.win 1).blk t).view.emb j)) 0#32) (FloatOps.mulf (V m c main_call0_v2 (((cfg0.win 0).blk t).view.emb j)) (Scalar.ofBits .f32 0x3F8E38E4#32)) (Scalar.ofBits .f32 0x00000000#32) = Scalar.select (IntOp.cmpi .ne (V m c main_call0_v4 (((cfg0.win 2).blk t).view.emb j)) 0#32) (FloatOps.mulf (V m c main_call0_v2 (((cfg0.win 2).blk t).view.emb j)) (Scalar.ofBits .f32 0x3F8E38E4#32)) (Scalar.ofBits .f32 0x00000000#32)
  have h0 : ((cfg0.win 0).blk t).view.emb j = ((cfg0.win 2).blk t).view.emb j := by
    funext a; apply Fin.ext
    match a with
    | ⟨0, _⟩ => show win0_0.index t (0 : Fin 2) * 8192 + 1 * (j 0).val = win0_2.index t (0 : Fin 2) * 8192 + 1 * (j 0).val; omega
    | ⟨1, _⟩ => show win0_0.index t (1 : Fin 2) * 128 + 1 * (j 1).val = win0_2.index t (1 : Fin 2) * 128 + 1 * (j 1).val; omega
  have h1 : ((cfg0.win 1).blk t).view.emb j = ((cfg0.win 2).blk t).view.emb j := by
    funext a; apply Fin.ext
    match a with
    | ⟨0, _⟩ => show win0_1.index t (0 : Fin 2) * 8192 + 1 * (j 0).val = win0_2.index t (0 : Fin 2) * 8192 + 1 * (j 0).val; omega
    | ⟨1, _⟩ => show win0_1.index t (1 : Fin 2) * 128 + 1 * (j 1).val = win0_2.index t (1 : Fin 2) * 128 + 1 * (j 1).val; omega
  rw [h0, h1]

/-- A position of the result array is in point `t`'s block iff each coordinate is in the block's range. -/
theorem mem_block (t : Fin cfg0.N) (i : S163840x128.Idx) :
    i ∈ ((cfg0.win 2).blk t).view.set ↔ ∀ a : Fin 2, win0_2.index t a * S8192x128.size a ≤ (i a).val ∧ (i a).val < win0_2.index t a * S8192x128.size a + S8192x128.size a := by
  show i ∈ ((View.whole main_call0_v5).slice (win0_2.rect t)).set ↔ _
  rw [View.set_slice_whole, Rect.mem_set_unit]
  exact Iff.rfl

/-- The 20 blocks tile the result array: row `r` is in the block of the point at block row r / 8192. -/
theorem tiled (i : S163840x128.Idx) : ∃ t : Fin cfg0.N, (cfg0.win 2).flush t = true ∧ i ∈ ((cfg0.win 2).blk t).view.set := by
  have hi0 : (i 0).val < 163840 := (i 0).isLt
  have hi1 : (i 1).val < 128 := (i 1).isLt
  obtain ⟨t, q0, q1⟩ := block_row_onto ⟨(i 0).val / 8192, by omega⟩
  have q0' : win0_2.index t (0 : Fin 2) = (i 0).val / 8192 := q0
  refine ⟨t, flush0_2 t, ?_⟩
  rw [mem_block]
  intro a
  match a with
  | ⟨0, _⟩ => show win0_2.index t (0 : Fin 2) * 8192 ≤ (i 0).val ∧ (i 0).val < win0_2.index t (0 : Fin 2) * 8192 + 8192; omega
  | ⟨1, _⟩ => show win0_2.index t (1 : Fin 2) * 128 ≤ (i 1).val ∧ (i 1).val < win0_2.index t (1 : Fin 2) * 128 + 128; omega

/-- The result array after the run is the masked, rescaled folded arrays. -/
theorem result_array (c : Dev nD) :
    (dats m 0 c).arrAt 2 cfg0.N = masked (V m c main_call0_v2) (V m c main_call0_v4) :=
  (dats m 0 c).arrAt_eq_of_cover 2 _ (fun t _ => written_eq m c t) tiled

/-! ## The two folded arrays the region finds, and the unfolding after it -/

/-- The values array the region finds: the argument padded at its end and folded into rows of 128. -/
theorem folded_values (c : Dev nD) :
    (V m c main_call0_v2 : S163840x128.Idx → Elt F .f32)
      = shapeCast S163840x128 (pad S20971520 ![0] ![971520] ![0] (m ((c : Thread nD τ).loc main_arg1))
          (sitofp .f32 (constantI S_ 32 0#32)) pads_S20000000_S20971520_09715200 h_S_) shapeCasts_S20971520_S163840x128 := by
  show StableHlo.after hostOps0 (fun b => m (c, b)) (Proc.devRef .tc main_call0_v2) = _
  after_results
  rfl

/-- The mask array the region finds: the argument padded at its end, folded into rows of 128, and each bit widened
    to a 32-bit word. -/
theorem folded_mask (c : Dev nD) :
    (V m c main_call0_v4 : S163840x128.Idx → Elt F .i32)
      = extui 32 (shapeCast S163840x128 (pad S20971520 ![0] ![971520] ![0] (m ((c : Thread nD τ).loc main_arg2))
          (id (cmpi .ne (constantI S_ 32 0#32) (broadcastInDim S_ ![] bcast_S_S_ (constantI S_ 32 0#32))))
          pads_S20000000_S20971520_09715200 h_S_) shapeCasts_S20971520_S163840x128) natLt_1_32 := by
  show StableHlo.after hostOps0 (fun b => m (c, b)) (Proc.devRef .tc main_call0_v4) = _
  after_results
  rfl

/-- The program's result: the result array unfolded and cut to its first 20 000 000 entries. -/
theorem unfolded_result (c : Dev nD) :
    (Pipeline.afterTail₀ cfgs (dats m) 0 (V0 m) [hostOps1] c main_v0 : S20000000.Idx → Elt F .f32)
      = extractStridedSlice S20000000 ![0] (shapeCast S20971520 (masked (V m c main_call0_v2) (V m c main_call0_v4))
          shapeCasts_S163840x128_S20971520) slices_S20971520_S20000000_0 := by
  have hw : (Pipeline.withArrays (cfgs 0).spec c (V0 m c) (fun w => (dats m 0 c).arrAt w (cfgs 0).N) (Proc.devRef .tc main_call0_v5)
      : S163840x128.Idx → Elt F .f32) = masked (V m c main_call0_v2) (V m c main_call0_v4) :=
    (Pipeline.withArrays_arr spec0 launch0.win.arr_inj c _ _ 2).trans (result_array m c)
  unfold Pipeline.afterTail₀
  show StableHlo.after hostOps1 _ (Proc.devRef .tc main_v0) = _
  after_results
  show extractStridedSlice S20000000 ![0] (shapeCast S20971520
    (Pipeline.withArrays (cfgs 0).spec c (V0 m c) (fun w => (dats m 0 c).arrAt w (cfgs 0).N) (Proc.devRef .tc main_call0_v5) : S163840x128.Idx → Elt F .f32)
    shapeCasts_S163840x128_S20971520) slices_S20971520_S20000000_0 = _
  rw [hw]

/-! ## The result, position by position -/

/-- The program's result at every position `k` of the argument arrays: the value there times the scale word where the
    mask bit is set, the zero word elsewhere. Position `k` is row k / 128, lane k mod 128 of the folded arrays, inside
    the unpadded part, so the padding is never read. -/
theorem result_eq (c : Dev nD) :
    (Pipeline.afterTail₀ cfgs (dats m) 0 (V0 m) [hostOps1] c main_v0 : S20000000.Idx → Elt F .f32)
      = fun i => Scalar.select (m ((c : Thread nD τ).loc main_arg2) i)
          (FloatOps.mulf (m ((c : Thread nD τ).loc main_arg1) i) (Scalar.ofBits .f32 0x3F8E38E4#32)) (Scalar.ofBits .f32 0x00000000#32) := by
  rw [unfolded_result]
  funext i
  obtain ⟨k, rfl⟩ : ∃ k : Fin 20000000, i = ix1 k := ⟨i 0, eq_ix1 i⟩
  have hk : k.val < 20000000 := k.isLt
  rw [Cert.SparseDropout.Folding.unfold_cut_apply]
  have hv : V m c main_call0_v2 (ix2 (⟨k.val / 128, by omega⟩ : Fin 163840) (⟨k.val % 128, Nat.mod_lt _ (by decide)⟩ : Fin 128))
      = m ((c : Thread nD τ).loc main_arg1) (ix1 k) := by
    rw [folded_values]
    exact Cert.SparseDropout.Folding.fold_pad_apply _ _ _ _ _ _ _ k (by show k.val = k.val / 128 * 128 + k.val % 128; omega)
  have hm : V m c main_call0_v4 (ix2 (⟨k.val / 128, by omega⟩ : Fin 163840) (⟨k.val % 128, Nat.mod_lt _ (by decide)⟩ : Fin 128))
      = (m ((c : Thread nD τ).loc main_arg2) (ix1 k)).setWidth 32 := by
    rw [folded_mask]
    show BitVec.setWidth 32 (shapeCast S163840x128 _ _ (ix2 _ _)) = _
    rw [Cert.SparseDropout.Folding.fold_pad_apply _ _ _ _ _ _ _ k (by show k.val = k.val / 128 * 128 + k.val % 128; omega)]
  show Scalar.select (IntOp.cmpi .ne (V m c main_call0_v4 _) 0#32) (FloatOps.mulf (V m c main_call0_v2 _) _) _ = _
  rw [hv, hm, Cert.SparseDropout.Folding.widen_ne_zero]

/-! ## The run -/

/-- Every weakly fair execution of the idealized kernel terminates with its result at the masked, rescaled values and its
    arguments unchanged. -/
theorem run : θ_run defs (onTc (τ := τ) (main (F := F))) ⟨m, fun _ => 0, ρ⟩ fun r => ∀ c : Dev nD,
      r.2.mem ((c : Thread nD τ).loc main_v0) = (fun i => Scalar.select (m ((c : Thread nD τ).loc main_arg2) i)
          (FloatOps.mulf (m ((c : Thread nD τ).loc main_arg1) i) (Scalar.ofBits .f32 0x3F8E38E4#32)) (Scalar.ofBits .f32 0x00000000#32))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨((h c).2 main_v0 (Pipeline.mem_restRefs_of main_v0 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Masked

end
-- ==== Proof.ReferenceValue.lean ====
/-
  What the idealized reference computes, position by position: it multiplies every value by the scale word and keeps
  the product where the mask bit is set, the zero word elsewhere. Each of its operations reads one position of each
  operand (the two scalars are spread over the array), so its result at position `i` is the value at `i` times the scale
  word where the mask bit at `i` is set, and the zero word elsewhere.
-/
import proofs.«171770_j52381421142407_1_alg».proof.Proof.Gen.ReferenceIdeal.Read

noncomputable section

namespace Cert.ReferenceIdeal.Masked

open Cert.ReferenceIdeal Cert.ReferenceIdeal.Gen Cert.ReferenceIdeal.Read Idealize.ShloMosaic

variable {F : FTy → Type} [FloatOps F]

/-- The reference's result term is the masked, rescaled values, position by position. -/
theorem result_eq (x1 : (⟨S20000000, .f32⟩ : BufTy).Contents (Elt F)) (x2 : (⟨S20000000, .i1⟩ : BufTy).Contents (Elt F)) :
    select x2 (mulf x1 (broadcastInDim S20000000 ![] bcast_S_S20000000 (constant S_ .f32 0x3F8E38E4#32)))
        (broadcastInDim S20000000 ![] bcast_S_S20000000 (constant S_ .f32 0x00000000#32))
      = fun i => Scalar.select (x2 i) (FloatOps.mulf (x1 i) (Scalar.ofBits .f32 0x3F8E38E4#32)) (Scalar.ofBits .f32 0x00000000#32) := by
  rw [val_main_v2_eq]
  funext i
  rw [val_main_v2_apply, val_main_v1_apply, val_main_v0_apply, val_main_cst_apply, val_main_call0_v0_apply,
    val_main_cst_0_apply]

end Cert.ReferenceIdeal.Masked

end
-- ==== Proof.lean ====
/-
  Sparse dropout over 20 000 000 values: out = where(keep_mask, values · s, 0) with s the f32 word nearest 1/(1 − 0.1).
  The kernel pads the values and the mask at the end to 163 840 × 128 entries, folds them into rows of 128, computes the
  masked product block by block (20 blocks of 8 192 rows), unfolds the result and cuts it back to 20 000 000 entries;
  the reference computes the masked product on the flat arrays. Both use the same scale word and the same zero word, and
  position k of the kernel's result reads position k of the arguments only (the padding lies beyond the cut), so over the
  extended reals the two results are one function of the arguments, position by position; no law of arithmetic is used,
  and the inputs' finiteness is not needed.
  The three frames: the kernel's and the idealized kernel's are the generated frame certificates; the reference's is
  its generated run with the result dropped. The idealization rewrote nothing, so `preserves` has no conjunct.
-/
import proofs.«171770_j52381421142407_1_alg».proof.Defs
import proofs.«171770_j52381421142407_1_alg».proof.Proof.Gen.Kernel
import proofs.«171770_j52381421142407_1_alg».proof.Proof.Gen.Kernel.Skeleton
import proofs.«171770_j52381421142407_1_alg».proof.Proof.Gen.Kernel.Launch
import proofs.«171770_j52381421142407_1_alg».proof.Proof.Gen.Kernel.Points
import proofs.«171770_j52381421142407_1_alg».proof.Proof.Gen.Kernel.Frame
import proofs.«171770_j52381421142407_1_alg».proof.Proof.Gen.KernelIdeal
import proofs.«171770_j52381421142407_1_alg».proof.Proof.Gen.KernelIdeal.Skeleton
import proofs.«171770_j52381421142407_1_alg».proof.Proof.Gen.KernelIdeal.Launch
import proofs.«171770_j52381421142407_1_alg».proof.Proof.Gen.KernelIdeal.Points
import proofs.«171770_j52381421142407_1_alg».proof.Proof.Gen.KernelIdeal.Frame
import proofs.«171770_j52381421142407_1_alg».proof.Proof.Gen.ReferenceIdeal
import proofs.«171770_j52381421142407_1_alg».proof.Proof.Gen.Pre_finite_inputs
import proofs.«171770_j52381421142407_1_alg».proof.Proof.Gen.ReferenceIdeal.Run
import proofs.«171770_j52381421142407_1_alg».proof.Proof.Gen.ReferenceIdeal.Read
import proofs.«171770_j52381421142407_1_alg».proof.Proof.KernelValue
import proofs.«171770_j52381421142407_1_alg».proof.Proof.ReferenceValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

/-- From arguments that agree, the idealized kernel and the idealized reference both end with the masked, rescaled
    values: the same function of the arguments, position by position. -/
theorem algebraic : Cert.algebraic_KernelIdeal_ReferenceIdeal := by
  intro m ρ m' ρ' _ hagree
  refine ⟨_, Cert.KernelIdeal.Masked.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).2.1, (hagree c).2.2]
  exact Cert.ReferenceIdeal.Masked.result_eq _ _

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
